-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 46
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S100000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One GraphSAGE layer with mean aggregation, as a function of arrays of extended reals.

  For a node `p` and an output feature `q` the layer's value is
      (∑ₖ h[p,k] · W_self[k,q]) + (∑ₖ (agg[p,k] / max(deg[p], 1)) · W_neigh[k,q]) + b[q],
  where `h` holds the node features, `agg` the sum of the features of `p`'s in-neighbours, and `deg` the number of
  those neighbours (a node without in-neighbours divides by one). The in-degree arrives as a one-column matrix and
  the bias as a one-row matrix: that is how both programs hand them to the layer. The number of nodes `N` is a
  parameter, so the same function reads a block of rows and the whole array.

  `relu` is the maximum with zero, entry by entry.
-/
import Idealize.ShloMosaic.PureOps.Ideal
import Idealize.ShloMosaic.Lib.ValueIdx

noncomputable section

namespace Cert.Sage

open Idealize.ShloMosaic Idealize.ShloMosaic.ValueIdx

/-- The layer at node `p`, feature `q`. -/
def layerAt {N : ℕ} (h agg : (⟨2, ![N, 128]⟩ : Shape).Idx → EReal) (degc : (⟨2, ![N, 1]⟩ : Shape).Idx → EReal)
    (Ws Wn : (⟨2, ![128, 128]⟩ : Shape).Idx → EReal) (brow : (⟨2, ![1, 128]⟩ : Shape).Idx → EReal)
    (p : Fin N) (q : Fin 128) : EReal :=
  (∑ k : Fin 128, h (ix2 p k) * Ws (ix2 k q))
    + (∑ k : Fin 128, Ideal.div (agg (ix2 p k)) (max (degc (ix2 p (0 : Fin 1))) (Ideal.ofBits .f32 0x3F800000#32)) * Wn (ix2 k q))
    + brow (ix2 (0 : Fin 1) q)

/-- The layer as an array over all nodes and features. -/
def layer {N : ℕ} (h agg : (⟨2, ![N, 128]⟩ : Shape).Idx → EReal) (degc : (⟨2, ![N, 1]⟩ : Shape).Idx → EReal)
    (Ws Wn : (⟨2, ![128, 128]⟩ : Shape).Idx → EReal) (brow : (⟨2, ![1, 128]⟩ : Shape).Idx → EReal) :
    (⟨2, ![N, 128]⟩ : Shape).Idx → EReal :=
  fun i => layerAt h agg degc Ws Wn brow (i 0) (i 1)

theorem layer_ix2 {N : ℕ} (h agg : (⟨2, ![N, 128]⟩ : Shape).Idx → EReal) (degc : (⟨2, ![N, 1]⟩ : Shape).Idx → EReal)
    (Ws Wn : (⟨2, ![128, 128]⟩ : Shape).Idx → EReal) (brow : (⟨2, ![1, 128]⟩ : Shape).Idx → EReal) (p : Fin N) (q : Fin 128) :
    layer h agg degc Ws Wn brow (ix2 p q) = layerAt h agg degc Ws Wn brow p q := rfl

/-- The maximum with zero, entry by entry. -/
def relu {s : Shape} (v : s.Idx → EReal) : s.Idx → EReal :=
  fun i => max (v i) (Ideal.ofBits .f32 0x00000000#32)

theorem relu_apply {s : Shape} (v : s.Idx → EReal) (i : s.Idx) : relu v i = max (v i) (Ideal.ofBits .f32 0x00000000#32) := rfl

/-- The layer at `(p, q)` only looks at row `p` of the node arrays, column `q` of the weights and entry `q` of the
    bias: two families of arrays that agree there (through any re-indexing of the rows and columns) give the same
    value. -/
theorem layerAt_congr {N M : ℕ} (h agg : (⟨2, ![N, 128]⟩ : Shape).Idx → EReal) (degc : (⟨2, ![N, 1]⟩ : Shape).Idx → EReal)
    (h' agg' : (⟨2, ![M, 128]⟩ : Shape).Idx → EReal) (degc' : (⟨2, ![M, 1]⟩ : Shape).Idx → EReal)
    (Ws Wn Ws' Wn' : (⟨2, ![128, 128]⟩ : Shape).Idx → EReal) (brow brow' : (⟨2, ![1, 128]⟩ : Shape).Idx → EReal)
    (p : Fin N) (p' : Fin M) (q q' : Fin 128)
    (eh : ∀ k : Fin 128, h (ix2 p k) = h' (ix2 p' k)) (ea : ∀ k : Fin 128, agg (ix2 p k) = agg' (ix2 p' k))
    (ed : degc (ix2 p (0 : Fin 1)) = degc' (ix2 p' (0 : Fin 1)))
    (es : ∀ k : Fin 128, Ws (ix2 k q) = Ws' (ix2 k q')) (en : ∀ k : Fin 128, Wn (ix2 k q) = Wn' (ix2 k q'))
    (eb : brow (ix2 (0 : Fin 1) q) = brow' (ix2 (0 : Fin 1) q')) :
    layerAt h agg degc Ws Wn brow p q = layerAt h' agg' degc' Ws' Wn' brow' p' q' := by
  unfold layerAt
  rw [ed, eb]
  simp only [eh, ea, es, en]

end Cert.Sage

end
-- ==== Proof.HostFns.lean ====
/-
  The two pieces of graph bookkeeping that both programs compute on the host with the same operations, and the
  two-layer network stated over them.

  `Deg dst` counts, for every node, the edges that point at it: a scatter-add of ones along the destination
  indices. `Agg x src dst` sums, for every node, the feature rows of the sources of the edges that point at it: a
  gather of the rows `x[src]` (a negative source index first moved up by the number of nodes, as array indexing
  does) followed by a scatter-add along the destinations. Neither is ever opened: the two programs apply them to
  equal arguments, and that is all the comparison needs.

  `degCol` and `biasRow` are the in-degree as a one-column matrix and a bias as a one-row matrix. `hidden` is the
  first layer followed by the maximum with zero, `net` the second layer applied to it: the value both programs
  compute.
-/
import proofs.«109857_j72232759984607_1_alg».proof.KernelIdeal
import proofs.«109857_j72232759984607_1_alg».proof.Proof.Spec

noncomputable section

namespace Cert.Sage

open Idealize.ShloMosaic Cert.KernelIdeal Cert.KernelIdeal.Facts₀

variable {F : FTy → Type} [FloatOps F] [Cert.KernelIdeal.Facts₀]

/-- The number of edges into each node. -/
def Deg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- For each node, the sum of the feature rows of its in-neighbours. -/
def Agg (x : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector over the nodes as a one-column matrix. -/
def col (d : (⟨S100000, .f32⟩ : BufTy).Contents (Elt F)) : (⟨S100000x1, .f32⟩ : BufTy).Contents (Elt F) :=
  shapeCast S100000x1 d shapeCasts_S100000_S100000x1

/-- The in-degree as a one-column matrix. -/
def degCol (dst : (⟨S1600000, .i32⟩ : BufTy).Contents (Elt F)) : (⟨S100000x1, .f32⟩ : BufTy).Contents (Elt F) :=
  col (Deg dst)

/-- A bias as a one-row matrix. -/
def biasRow (b : (⟨S128, .f32⟩ : BufTy).Contents (Elt F)) : (⟨S1x128, .f32⟩ : BufTy).Contents (Elt F) :=
  shapeCast S1x128 b shapeCasts_S128_S1x128

/-- The first layer followed by the maximum with zero. -/
def hidden (x : (⟨S100000x128, .f32⟩ : BufTy).Contents (Elt Ideal)) (Ws Wn : (⟨S128x128, .f32⟩ : BufTy).Contents (Elt Ideal))
    (b : (⟨S128, .f32⟩ : BufTy).Contents (Elt Ideal)) (src dst : (⟨S1600000, .i32⟩ : BufTy).Contents (Elt Ideal)) :
    (⟨S100000x128, .f32⟩ : BufTy).Contents (Elt Ideal) :=
  relu (layer (N := 100000) x (Agg x src dst) (degCol dst) Ws Wn (biasRow b))

/-- The two-layer network. -/
def net (x : (⟨S100000x128, .f32⟩ : BufTy).Contents (Elt Ideal)) (Ws1 Wn1 : (⟨S128x128, .f32⟩ : BufTy).Contents (Elt Ideal))
    (b1 : (⟨S128, .f32⟩ : BufTy).Contents (Elt Ideal)) (Ws2 Wn2 : (⟨S128x128, .f32⟩ : BufTy).Contents (Elt Ideal))
    (b2 : (⟨S128, .f32⟩ : BufTy).Contents (Elt Ideal)) (src dst : (⟨S1600000, .i32⟩ : BufTy).Contents (Elt Ideal)) :
    (⟨S100000x128, .f32⟩ : BufTy).Contents (Elt Ideal) :=
  layer (N := 100000) (hidden x Ws1 Wn1 b1 src dst) (Agg (hidden x Ws1 Wn1 b1 src dst) src dst) (degCol dst) Ws2 Wn2 (biasRow b2)

end Cert.Sage

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Payload.lean ====
/-
  What the two kernel bodies store, read at one entry.

  Each body loads a block of 5000 rows of the node features `x0`, of the neighbour sums `x1` and of the in-degree
  column `x2`, the two weight matrices `x3`, `x4` and the bias row `x5`, and stores, at row `p` and feature `q`,
      (∑ₖ x0[p,k] · x3[k,q]) + (∑ₖ (x1[p,k] / max(x2[p,0], 1)) · x4[k,q]) + x5[0,q]:
  the layer of the specification on that block. The roundings to bf16 before the two products are the identity on
  extended reals; a product accumulated into a zero matrix is the plain sum over the contracted coordinate; the
  in-degree column is repeated along the features and the bias row along the rows. The first body then takes the
  maximum with zero.
-/
import proofs.«109857_j72232759984607_1_alg».proof.Proof.Gen.KernelIdeal.Skeleton
import proofs.«109857_j72232759984607_1_alg».proof.Proof.Spec
import proofs.«109857_j72232759984607_1_alg».proof.Proof.LibColumn
import Idealize.ShloMosaic.Lib.StackMember
import Idealize.ShloMosaic.Lib.KernelVsHost
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.KernelIdeal.Facts₀

/-- A 5000×128 by 128×128 product accumulated into zeros, at `(p, q)`: the sum over the contracted coordinate. -/
theorem matmul_block_apply (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  rw [matmul_zero_eq_dotGeneral]
  exact StackMember.dotGeneral_plain_apply (m := 5000) (n := 128) (k := 128) none A B p q

/-- The second body's stored value at `(p, q)` is the layer on the loaded blocks. -/
theorem pay1_apply (x0 x1 : Vec Ideal S5000x128 .f32) (x2 : Vec Ideal S5000x1 .f32) (x3 x4 : Vec Ideal S128x128 .f32)
    (x5 : Vec Ideal S1x128 .f32) (p : Fin 5000) (q : Fin 128) :
    k1_pay1 (F := Ideal) x0 x1 x2 x3 x4 x5 (ix2 p q) = Cert.Sage.layerAt (N := 5000) x0 x1 x2 x3 x4 x5 p q := by
  unfold k1_pay1 Cert.Sage.layerAt
  simp only [shapeCast_self]
  show (matmul _ none _ _ _ (ix2 p q) + matmul _ none _ _ _ (ix2 p q)) + broadcastTo S5000x128 _ _ (ix2 p q) = _
  rw [matmul_block_apply, matmul_block_apply, broadcastTo_1b_ab_apply]
  refine congrArg₂ (· + ·) (congrArg₂ (· + ·) rfl ?_) rfl
  refine Finset.sum_congr rfl fun k _ => ?_
  show Ideal.div (x1 (ix2 p k)) (broadcastTo S5000x128 _ _ (ix2 p k)) * x4 (ix2 k q) = _
  rw [Cert.LibColumn.broadcastTo_a1_ab_apply]
  rfl

/-- The first body stores the maximum of that with zero. -/
theorem pay0_apply (x0 x1 : Vec Ideal S5000x128 .f32) (x2 : Vec Ideal S5000x1 .f32) (x3 x4 : Vec Ideal S128x128 .f32)
    (x5 : Vec Ideal S1x128 .f32) (p : Fin 5000) (q : Fin 128) :
    k0_pay1 (F := Ideal) x0 x1 x2 x3 x4 x5 (ix2 p q)
      = max (Cert.Sage.layerAt (N := 5000) x0 x1 x2 x3 x4 x5 p q) (Ideal.ofBits .f32 0x00000000#32) := by
  unfold k0_pay1 Cert.Sage.layerAt
  simp only [shapeCast_self]
  show max ((matmul _ none _ _ _ (ix2 p q) + matmul _ none _ _ _ (ix2 p q)) + broadcastTo S5000x128 _ _ (ix2 p q)) _ = _
  rw [matmul_block_apply, matmul_block_apply, broadcastTo_1b_ab_apply]
  refine congrArg₂ max (congrArg₂ (· + ·) (congrArg₂ (· + ·) rfl ?_) rfl) rfl
  refine Finset.sum_congr rfl fun k _ => ?_
  show Ideal.div (x1 (ix2 p k)) (broadcastTo S5000x128 _ _ (ix2 p k)) * x4 (ix2 k q) = _
  rw [Cert.LibColumn.broadcastTo_a1_ab_apply]
  rfl

end Cert.KernelIdeal.Pay

end
-- ==== Proof.Region0.lean ====
/-
  The first launch: what its output array holds once every grid point has run.

  The grid has 20 points; point `t` reads rows `5000·t … 5000·t + 4999` of the node features, of the neighbour sums
  and of the in-degree column, the whole of both weight matrices and of the bias row, and writes the same rows of
  the output. What it writes at row `p` of its block and feature `q` is the layer of the specification on the loaded
  blocks followed by the maximum with zero; a block's row `p` is row `5000·t + p` of its array, so that value is the
  layer on the whole arrays at row `5000·t + p`. The 20 blocks tile the 100000 rows, hence the output array ends
  holding `relu (layer …)` of the arrays the launch found — whatever those are (`V`).
-/
import proofs.«109857_j72232759984607_1_alg».proof.Proof.Gen.KernelIdeal.Frame
import proofs.«109857_j72232759984607_1_alg».proof.Proof.Payload

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays the launch finds, each at its literal type. -/
abbrev feat (c : Dev nD) : Vec Ideal S100000x128 .f32 := V c (Pipeline.arrRef spec0 0)
abbrev nsum (c : Dev nD) : Vec Ideal S100000x128 .f32 := V c (Pipeline.arrRef spec0 1)
abbrev dcol (c : Dev nD) : Vec Ideal S100000x1 .f32 := V c (Pipeline.arrRef spec0 2)
abbrev wself (c : Dev nD) : Vec Ideal S128x128 .f32 := V c (Pipeline.arrRef spec0 3)
abbrev wneigh (c : Dev nD) : Vec Ideal S128x128 .f32 := V c (Pipeline.arrRef spec0 4)
abbrev brow (c : Dev nD) : Vec Ideal S1x128 .f32 := V c (Pipeline.arrRef spec0 5)

/-- What the output array ends holding: the layer of the arrays found, then the maximum with zero. -/
def G (c : Dev nD) : Vec Ideal S100000x128 .f32 :=
  Cert.Sage.relu (Cert.Sage.layer (N := 100000) (feat V c) (nsum V c) (dcol V c) (wself V c) (wneigh V c) (brow V c))

theorem hz : (![0, 0] : Fin 2 → Nat) = fun _ => 0 := funext fun a => by fin_cases a <;> rfl

/-- The index maps over the grid: the row-blocked windows sit at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 20 := by
  have h := t.isLt
  have hN : cfg0.N = 20 := N_0
  omega

/-- Row `p` of point `t`'s block is row `5000·t + p` of the array. -/
def row (t : Fin cfg0.N) (p : Fin 5000) : Fin 100000 := ⟨t.val * 5000 + p.val, by have := t_lt t; have := p.isLt; omega⟩

/-- The block reads, window by window. -/
theorem read_feat (c : Dev nD) (t : Fin cfg0.N) (p : Fin 5000) (k : Fin 128) :
    iblk0 V c 0 t (ix2 p k) = feat V c (ix2 (row t p) k) := by
  obtain ⟨e0, e1, -⟩ := idx_facts t
  show V c (Pipeline.arrRef spec0 0) (((cfg0.win 0).blk t).view.emb (ix2 p k)) = V c (Pipeline.arrRef spec0 0) (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_nsum (c : Dev nD) (t : Fin cfg0.N) (p : Fin 5000) (k : Fin 128) :
    iblk0 V c 1 t (ix2 p k) = nsum V c (ix2 (row t p) k) := by
  obtain ⟨-, -, e0, e1, -⟩ := idx_facts t
  show V c (Pipeline.arrRef spec0 1) (((cfg0.win 1).blk t).view.emb (ix2 p k)) = V c (Pipeline.arrRef spec0 1) (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem read_dcol (c : Dev nD) (t : Fin cfg0.N) (p : Fin 5000) :
    iblk0 V c 2 t (ix2 p (0 : Fin 1)) = dcol V c (ix2 (row t p) (0 : Fin 1)) := by
  obtain ⟨-, -, -, -, e0, e1, -⟩ := idx_facts t
  show V c (Pipeline.arrRef spec0 2) (((cfg0.win 2).blk t).view.emb (ix2 p (0 : Fin 1))) = V c (Pipeline.arrRef spec0 2) (ix2 (row t p) (0 : Fin 1))
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

theorem read_wself (c : Dev nD) (t : Fin cfg0.N) (k q : Fin 128) :
    iblk0 V c 3 t (ix2 k q) = wself V c (ix2 k q) := by
  obtain ⟨-, -, -, -, -, -, e0, e1, -⟩ := idx_facts t
  show V c (Pipeline.arrRef spec0 3) (((cfg0.win 3).blk t).view.emb (ix2 k q)) = V c (Pipeline.arrRef spec0 3) (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_wneigh (c : Dev nD) (t : Fin cfg0.N) (k q : Fin 128) :
    iblk0 V c 4 t (ix2 k q) = wneigh V c (ix2 k q) := by
  obtain ⟨-, -, -, -, -, -, -, -, e0, e1, -⟩ := idx_facts t
  show V c (Pipeline.arrRef spec0 4) (((cfg0.win 4).blk t).view.emb (ix2 k q)) = V c (Pipeline.arrRef spec0 4) (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem read_brow (c : Dev nD) (t : Fin cfg0.N) (q : Fin 128) :
    iblk0 V c 5 t (ix2 (0 : Fin 1) q) = brow V c (ix2 (0 : Fin 1) q) := by
  obtain ⟨-, -, -, -, -, -, -, -, -, -, e0, e1, -⟩ := idx_facts t
  show V c (Pipeline.arrRef spec0 5) (((cfg0.win 5).blk t).view.emb (ix2 (0 : Fin 1) q)) = V c (Pipeline.arrRef spec0 5) (ix2 (0 : Fin 1) q)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Entry `(p, q)` of point `t`'s output block sits at `(5000·t + p, q)` of the output array. -/
theorem out_emb (t : Fin cfg0.N) (p : Fin 5000) (q : Fin 128) :
    ((cfg0.win 6).blk t).view.emb (ix2 p q) = ix2 (row t p) q := by
  obtain ⟨-, -, -, -, -, -, -, -, -, -, -, -, e0, e1⟩ := idx_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-- What point `t` writes back is block `t` of `G`. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = G V c (((cfg0.win 6).blk t).view.emb (ix2 p q))
  rw [out_emb t p q]
  refine (Cert.KernelIdeal.Pay.pay0_apply (iblk0 V c 0 t) (iblk0 V c 1 t) (iblk0 V c 2 t) (iblk0 V c 3 t) (iblk0 V c 4 t) (iblk0 V c 5 t) p q).trans ?_
  show _ = max (Cert.Sage.layerAt (N := 100000) (feat V c) (nsum V c) (dcol V c) (wself V c) (wneigh V c) (brow V c) (row t p) q) _
  refine congrArg (max · _) ?_
  exact Cert.Sage.layerAt_congr _ _ _ _ _ _ _ _ _ _ _ _ p (row t p) q q
    (fun k => read_feat V c t p k) (fun k => read_nsum V c t p k) (read_dcol V c t p)
    (fun k => read_wself V c t k q) (fun k => read_wneigh V c t k q) (read_brow V c t q)

/-- An index of the output array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The blocks tile the array: row `r` is in the block of point `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by omega⟩
  have htv : t.val = (i 0).val / 5000 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the launch. -/
theorem final (c : Dev nD) : (dat0 (F := Ideal) V c).arrAt 6 cfg0.N = G V c :=
  (dat0 (F := Ideal) V c).arrAt_eq_of_cover 6 (G V c) (fun t _ => flushed_eq V c t) (cover)

end Cert.KernelIdeal.Reg0

end
-- ==== Proof.Region1.lean ====
/-
  The second launch: what its output array holds once every grid point has run.

  It is laid out as the first: 20 points, point `t` reading rows `5000·t … 5000·t + 4999` of the hidden features, of
  their neighbour sums and of the in-degree column, the whole of the second layer's weight matrices and bias row,
  and writing the same rows of the output. Its body stores the layer of the specification on the loaded blocks with
  no maximum after it, and row `p` of a block is row `5000·t + p` of its array; the 20 blocks tile the 100000 rows,
  so the output array ends holding `layer …` of the arrays the launch found (`V`).
-/
import proofs.«109857_j72232759984607_1_alg».proof.Proof.Gen.KernelIdeal.Frame
import proofs.«109857_j72232759984607_1_alg».proof.Proof.Payload

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays the launch finds, each at its literal type. -/
abbrev feat (c : Dev nD) : Vec Ideal S100000x128 .f32 := V c (Pipeline.arrRef spec1 0)
abbrev nsum (c : Dev nD) : Vec Ideal S100000x128 .f32 := V c (Pipeline.arrRef spec1 1)
abbrev dcol (c : Dev nD) : Vec Ideal S100000x1 .f32 := V c (Pipeline.arrRef spec1 2)
abbrev wself (c : Dev nD) : Vec Ideal S128x128 .f32 := V c (Pipeline.arrRef spec1 3)
abbrev wneigh (c : Dev nD) : Vec Ideal S128x128 .f32 := V c (Pipeline.arrRef spec1 4)
abbrev brow (c : Dev nD) : Vec Ideal S1x128 .f32 := V c (Pipeline.arrRef spec1 5)

/-- What the output array ends holding: the layer of the arrays found. -/
def G (c : Dev nD) : Vec Ideal S100000x128 .f32 :=
  Cert.Sage.layer (N := 100000) (feat V c) (nsum V c) (dcol V c) (wself V c) (wneigh V c) (brow V c)

theorem hz : (![0, 0] : Fin 2 → Nat) = fun _ => 0 := funext fun a => by fin_cases a <;> rfl

/-- The index maps over the grid: the row-blocked windows sit at block `(t, 0)`, the whole-array windows at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 20 := by
  have h := t.isLt
  have hN : cfg1.N = 20 := N_1
  omega

/-- Row `p` of point `t`'s block is row `5000·t + p` of the array. -/
def row (t : Fin cfg1.N) (p : Fin 5000) : Fin 100000 := ⟨t.val * 5000 + p.val, by have := t_lt t; have := p.isLt; omega⟩

/-- The block reads, window by window. -/
theorem read_feat (c : Dev nD) (t : Fin cfg1.N) (p : Fin 5000) (k : Fin 128) :
    iblk1 V c 0 t (ix2 p k) = feat V c (ix2 (row t p) k) := by
  obtain ⟨e0, e1, -⟩ := idx_facts t
  show V c (Pipeline.arrRef spec1 0) (((cfg1.win 0).blk t).view.emb (ix2 p k)) = V c (Pipeline.arrRef spec1 0) (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read_nsum (c : Dev nD) (t : Fin cfg1.N) (p : Fin 5000) (k : Fin 128) :
    iblk1 V c 1 t (ix2 p k) = nsum V c (ix2 (row t p) k) := by
  obtain ⟨-, -, e0, e1, -⟩ := idx_facts t
  show V c (Pipeline.arrRef spec1 1) (((cfg1.win 1).blk t).view.emb (ix2 p k)) = V c (Pipeline.arrRef spec1 1) (ix2 (row t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem read_dcol (c : Dev nD) (t : Fin cfg1.N) (p : Fin 5000) :
    iblk1 V c 2 t (ix2 p (0 : Fin 1)) = dcol V c (ix2 (row t p) (0 : Fin 1)) := by
  obtain ⟨-, -, -, -, e0, e1, -⟩ := idx_facts t
  show V c (Pipeline.arrRef spec1 2) (((cfg1.win 2).blk t).view.emb (ix2 p (0 : Fin 1))) = V c (Pipeline.arrRef spec1 2) (ix2 (row t p) (0 : Fin 1))
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem read_wself (c : Dev nD) (t : Fin cfg1.N) (k q : Fin 128) :
    iblk1 V c 3 t (ix2 k q) = wself V c (ix2 k q) := by
  obtain ⟨-, -, -, -, -, -, e0, e1, -⟩ := idx_facts t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem read_wneigh (c : Dev nD) (t : Fin cfg1.N) (k q : Fin 128) :
    iblk1 V c 4 t (ix2 k q) = wneigh V c (ix2 k q) := by
  obtain ⟨-, -, -, -, -, -, -, -, e0, e1, -⟩ := idx_facts t
  show V c (Pipeline.arrRef spec1 4) (((cfg1.win 4).blk t).view.emb (ix2 k q)) = V c (Pipeline.arrRef spec1 4) (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem read_brow (c : Dev nD) (t : Fin cfg1.N) (q : Fin 128) :
    iblk1 V c 5 t (ix2 (0 : Fin 1) q) = brow V c (ix2 (0 : Fin 1) q) := by
  obtain ⟨-, -, -, -, -, -, -, -, -, -, e0, e1, -⟩ := idx_facts t
  show V c (Pipeline.arrRef spec1 5) (((cfg1.win 5).blk t).view.emb (ix2 (0 : Fin 1) q)) = V c (Pipeline.arrRef spec1 5) (ix2 (0 : Fin 1) q)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Entry `(p, q)` of point `t`'s output block sits at `(5000·t + p, q)` of the output array. -/
theorem out_emb (t : Fin cfg1.N) (p : Fin 5000) (q : Fin 128) :
    ((cfg1.win 6).blk t).view.emb (ix2 p q) = ix2 (row t p) q := by
  obtain ⟨-, -, -, -, -, -, -, -, -, -, -, -, e0, e1⟩ := idx_facts t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point `t` writes back is block `t` of `G`. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = G V c (((cfg1.win 6).blk t).view.emb (ix2 p q))
  rw [out_emb t p q]
  refine (Cert.KernelIdeal.Pay.pay1_apply (iblk1 V c 0 t) (iblk1 V c 1 t) (iblk1 V c 2 t) (iblk1 V c 3 t) (iblk1 V c 4 t) (iblk1 V c 5 t) p q).trans ?_
  show _ = Cert.Sage.layerAt (N := 100000) (feat V c) (nsum V c) (dcol V c) (wself V c) (wneigh V c) (brow V c) (row t p) q
  exact Cert.Sage.layerAt_congr _ _ _ _ _ _ _ _ _ _ _ _ p (row t p) q q
    (fun k => read_feat V c t p k) (fun k => read_nsum V c t p k) (read_dcol V c t p)
    (fun k => read_wself V c t k q) (fun k => read_wneigh V c t k q) (read_brow V c t q)

/-- An index of the output array is in point `t`'s block iff each coordinate is in the block's range. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v28).slice (win1_6.rect t)).set ↔ _
  rw [View.set_slice_whole, Rect.mem_set_unit]
  exact Iff.rfl

/-- The blocks tile the array: row `r` is in the block of point `r / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by omega⟩
  have htv : t.val = (i 0).val / 5000 := rfl
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the launch. -/
theorem final (c : Dev nD) : (dat1 (F := Ideal) V c).arrAt 6 cfg1.N = G V c :=
  (dat1 (F := Ideal) V c).arrAt_eq_of_cover 6 (G V c) (fun t _ => flushed_eq V c t) (cover)

end Cert.KernelIdeal.Reg1

end
-- ==== Proof.HostK.lean ====
/-
  The kernel program's host side, read: what the arrays of each launch hold when the launch is entered, and
  hence what the program returns.

  Before the first launch the host computes the in-degree column, the neighbour sums of the input features and
  the first bias as a row; nothing else the launch reads is written, so it finds the arguments as launched. Between
  the launches the host computes the neighbour sums of the first launch's output and the second bias as a row; the
  in-degree column, the output of the first launch and the arguments are as they were. Each launch's output is the
  layer of what it finds (the first followed by the maximum with zero), so the program returns the two-layer network
  of its arguments.
-/
import proofs.«109857_j72232759984607_1_alg».proof.Proof.Gen.KernelIdeal.Frame
import proofs.«109857_j72232759984607_1_alg».proof.Proof.HostFns
import proofs.«109857_j72232759984607_1_alg».proof.Proof.Region0
import proofs.«109857_j72232759984607_1_alg».proof.Proof.Region1

set_option maxRecDepth 16384

noncomputable section

namespace Cert.KernelIdeal.HostK

open Idealize.ShloMosaic Idealize.ShloMosaic.TcCoe Idealize.ShloMosaic.StableHlo Idealize.SL.Sem
open Cert.KernelIdeal Cert.KernelIdeal.Gen Cert.Sage

section Stretches

variable {F : FTy → Type} [FloatOps F] (Wz : Valuation τ sig (Elt F))

/-! ## The stretch before the first launch -/

theorem pre_nsum : StableHlo.after hostOps0 Wz (Proc.devRef .tc main_v14)
    = Agg (Wz (Proc.devRef .tc main_arg0)) (Wz (Proc.devRef .tc main_arg7)) (Wz (Proc.devRef .tc main_arg8)) := by
  after_results_simp <;> rfl
theorem pre_dcol : StableHlo.after hostOps0 Wz (Proc.devRef .tc main_v4) = degCol (Wz (Proc.devRef .tc main_arg8)) := by
  after_results_simp <;> rfl
theorem pre_brow : StableHlo.after hostOps0 Wz (Proc.devRef .tc main_v15) = biasRow (Wz (Proc.devRef .tc main_arg3)) := by
  after_results_simp <;> rfl
theorem pre_arg0 : StableHlo.after hostOps0 Wz (Proc.devRef .tc main_arg0) = Wz (Proc.devRef .tc main_arg0) := by
  after_results_simp <;> rfl
theorem pre_arg1 : StableHlo.after hostOps0 Wz (Proc.devRef .tc main_arg1) = Wz (Proc.devRef .tc main_arg1) := by
  after_results_simp <;> rfl
theorem pre_arg2 : StableHlo.after hostOps0 Wz (Proc.devRef .tc main_arg2) = Wz (Proc.devRef .tc main_arg2) := by
  after_results_simp <;> rfl
theorem pre_arg4 : StableHlo.after hostOps0 Wz (Proc.devRef .tc main_arg4) = Wz (Proc.devRef .tc main_arg4) := by
  after_results_simp <;> rfl
theorem pre_arg5 : StableHlo.after hostOps0 Wz (Proc.devRef .tc main_arg5) = Wz (Proc.devRef .tc main_arg5) := by
  after_results_simp <;> rfl
theorem pre_arg6 : StableHlo.after hostOps0 Wz (Proc.devRef .tc main_arg6) = Wz (Proc.devRef .tc main_arg6) := by
  after_results_simp <;> rfl
theorem pre_arg7 : StableHlo.after hostOps0 Wz (Proc.devRef .tc main_arg7) = Wz (Proc.devRef .tc main_arg7) := by
  after_results_simp <;> rfl
theorem pre_arg8 : StableHlo.after hostOps0 Wz (Proc.devRef .tc main_arg8) = Wz (Proc.devRef .tc main_arg8) := by
  after_results_simp <;> rfl

/-! ## The stretch between the launches -/

theorem mid_nsum : StableHlo.after hostOps1 Wz (Proc.devRef .tc main_v26)
    = Agg (Wz (Proc.devRef .tc main_v16)) (Wz (Proc.devRef .tc main_arg7)) (Wz (Proc.devRef .tc main_arg8)) := by
  after_results_simp <;> rfl
theorem mid_brow : StableHlo.after hostOps1 Wz (Proc.devRef .tc main_v27) = biasRow (Wz (Proc.devRef .tc main_arg6)) := by
  after_results_simp <;> rfl
theorem mid_feat : StableHlo.after hostOps1 Wz (Proc.devRef .tc main_v16) = Wz (Proc.devRef .tc main_v16) := by
  after_results_simp <;> rfl
theorem mid_dcol : StableHlo.after hostOps1 Wz (Proc.devRef .tc main_v4) = Wz (Proc.devRef .tc main_v4) := by
  after_results_simp <;> rfl
theorem mid_arg4 : StableHlo.after hostOps1 Wz (Proc.devRef .tc main_arg4) = Wz (Proc.devRef .tc main_arg4) := by
  after_results_simp <;> rfl
theorem mid_arg5 : StableHlo.after hostOps1 Wz (Proc.devRef .tc main_arg5) = Wz (Proc.devRef .tc main_arg5) := by
  after_results_simp <;> rfl

end Stretches

/-! ## The run's boundaries -/

variable (m : (ℓ : Loc nD τ sig) → Buf (Elt Ideal) ℓ) (ρ : Dev nD → PrngReg)

/-- The first launch's output array, at its exit: the hidden features. -/
theorem hidden_at_exit (c : Dev nD) : W2 m ρ c (Proc.devRef .tc main_v16)
    = Cert.Sage.hidden (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg7)) (m ((c.tc : Thread nD τ).loc main_arg8)) := by
  refine (W2_arr m ρ c 6).trans ((Cert.KernelIdeal.Reg0.final (V1 m ρ) c).trans ?_)
  unfold Cert.KernelIdeal.Reg0.G Cert.Sage.hidden
  show relu (layer (N := 100000) (W1 m ρ c (Proc.devRef .tc main_arg0)) (W1 m ρ c (Proc.devRef .tc main_v14)) (W1 m ρ c (Proc.devRef .tc main_v4))
    (W1 m ρ c (Proc.devRef .tc main_arg1)) (W1 m ρ c (Proc.devRef .tc main_arg2)) (W1 m ρ c (Proc.devRef .tc main_v15))) = _
  rw [show W1 m ρ c (Proc.devRef .tc main_arg0) = _ from pre_arg0 (W0 m ρ c),
    show W1 m ρ c (Proc.devRef .tc main_v14) = _ from pre_nsum (W0 m ρ c),
    show W1 m ρ c (Proc.devRef .tc main_v4) = _ from pre_dcol (W0 m ρ c),
    show W1 m ρ c (Proc.devRef .tc main_arg1) = _ from pre_arg1 (W0 m ρ c),
    show W1 m ρ c (Proc.devRef .tc main_arg2) = _ from pre_arg2 (W0 m ρ c),
    show W1 m ρ c (Proc.devRef .tc main_v15) = _ from pre_brow (W0 m ρ c)]

/-- An argument the first launch does not touch is, at its exit, as launched. -/
theorem exit_arg4 (c : Dev nD) : W2 m ρ c (Proc.devRef .tc main_arg4) = m ((c.tc : Thread nD τ).loc main_arg4) :=
  (W2_of_ne m ρ c main_arg4 (by decide)).trans (pre_arg4 (W0 m ρ c))
theorem exit_arg5 (c : Dev nD) : W2 m ρ c (Proc.devRef .tc main_arg5) = m ((c.tc : Thread nD τ).loc main_arg5) :=
  (W2_of_ne m ρ c main_arg5 (by decide)).trans (pre_arg5 (W0 m ρ c))
theorem exit_arg6 (c : Dev nD) : W2 m ρ c (Proc.devRef .tc main_arg6) = m ((c.tc : Thread nD τ).loc main_arg6) :=
  (W2_of_ne m ρ c main_arg6 (by decide)).trans (pre_arg6 (W0 m ρ c))
theorem exit_arg7 (c : Dev nD) : W2 m ρ c (Proc.devRef .tc main_arg7) = m ((c.tc : Thread nD τ).loc main_arg7) :=
  (W2_of_ne m ρ c main_arg7 (by decide)).trans (pre_arg7 (W0 m ρ c))
theorem exit_arg8 (c : Dev nD) : W2 m ρ c (Proc.devRef .tc main_arg8) = m ((c.tc : Thread nD τ).loc main_arg8) :=
  (W2_of_ne m ρ c main_arg8 (by decide)).trans (pre_arg8 (W0 m ρ c))

/-- The in-degree column is an input of the first launch: at its exit it is what the host computed. -/
theorem exit_dcol (c : Dev nD) : W2 m ρ c (Proc.devRef .tc main_v4) = degCol (m ((c.tc : Thread nD τ).loc main_arg8)) :=
  ((W2_arr m ρ c 2).trans (((dat0 (V1 m ρ) c).arrAt_in 2 rfl _).trans (A_eq0 (V1 m ρ) c 2))).trans (pre_dcol (W0 m ρ c))

/-- THE KERNEL PROGRAM'S RESULT: the two-layer network of its arguments. -/
theorem result (c : Dev nD) : W4 m ρ c (Proc.devRef .tc main_v28)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W4_arr m ρ c 6).trans ((Cert.KernelIdeal.Reg1.final (V3 m ρ) c).trans ?_)
  unfold Cert.KernelIdeal.Reg1.G net
  show layer (N := 100000) (W3 m ρ c (Proc.devRef .tc main_v16)) (W3 m ρ c (Proc.devRef .tc main_v26)) (W3 m ρ c (Proc.devRef .tc main_v4))
    (W3 m ρ c (Proc.devRef .tc main_arg4)) (W3 m ρ c (Proc.devRef .tc main_arg5)) (W3 m ρ c (Proc.devRef .tc main_v27)) = _
  rw [show W3 m ρ c (Proc.devRef .tc main_v16) = _ from (mid_feat (W2 m ρ c)).trans (hidden_at_exit m ρ c),
    show W3 m ρ c (Proc.devRef .tc main_v26) = _ from mid_nsum (W2 m ρ c),
    show W3 m ρ c (Proc.devRef .tc main_v4) = _ from (mid_dcol (W2 m ρ c)).trans (exit_dcol m ρ c),
    show W3 m ρ c (Proc.devRef .tc main_arg4) = _ from (mid_arg4 (W2 m ρ c)).trans (exit_arg4 m ρ c),
    show W3 m ρ c (Proc.devRef .tc main_arg5) = _ from (mid_arg5 (W2 m ρ c)).trans (exit_arg5 m ρ c),
    show W3 m ρ c (Proc.devRef .tc main_v27) = _ from mid_brow (W2 m ρ c),
    hidden_at_exit m ρ c, exit_arg6 m ρ c, exit_arg7 m ρ c, exit_arg8 m ρ c]

end Cert.KernelIdeal.HostK

end
-- ==== Proof.LibHostColumn.lean ====
/-
  The host's way of laying a vector along a matrix: `broadcast_in_dim` names, for each axis of the operand, the axis
  of the result it lies along. Three shapes of it read at an entry: a length-`a` vector made a one-column matrix
  `[a, 1]` (axis 0 kept) reads the vector at the row; a one-column matrix `[a, 1]` repeated across `b` columns
  (axes 0 and 1 kept, the unit axis read at 0) reads the column's entry in the row; a length-`b` vector made a
  one-row matrix `[1, b]` (its axis laid along axis 1) reads the vector at the column. Stated for any extents and
  any element type; nothing here mentions a program.
-/
import Idealize.ShloMosaic.Lib.Pipeline.Value
import Idealize.ShloMosaic.Lib.ValueIdx

namespace Cert.LibHostColumn

open Idealize.ShloMosaic Idealize.ShloMosaic.ValueIdx

variable {α : Type}

/-- A length-`a` vector as the one-column matrix `[a, 1]`, read at `(p, u)`: the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A one-column matrix `[a, 1]` repeated across `b` columns, read at `(p, c)`: the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A length-`b` vector as the one-row matrix `[1, b]`, read at `(u, c)`: the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

end Cert.LibHostColumn
-- ==== Proof.RefValue.lean ====
/-
  The reference program's result is the two-layer network of its arguments.

  The reference computes the in-degree and the neighbour sums with the very operations of `Deg` and `Agg`; then,
  per layer, the quotient of the neighbour sums by the in-degree (at least one) repeated along the features, the two
  matrix products, their sum, and the bias repeated along the rows. Read at node `p` and feature `q`, a host matrix
  product is the sum over the contracted coordinate, the repeated in-degree is the in-degree of `p` and the repeated
  bias is the bias at `q`: the layer of the specification, with the in-degree as a column and the bias as a row.
  Between the layers the reference takes the maximum with a zero array.
-/
import proofs.«109857_j72232759984607_1_alg».proof.Proof.Gen.ReferenceIdeal.Run
import proofs.«109857_j72232759984607_1_alg».proof.Proof.Gen.KernelIdeal
import proofs.«109857_j72232759984607_1_alg».proof.Proof.HostFns
import proofs.«109857_j72232759984607_1_alg».proof.Proof.LibColumn
import proofs.«109857_j72232759984607_1_alg».proof.Proof.LibHostColumn
import Idealize.ShloMosaic.Lib.StackMember
import Idealize.ShloMosaic.Lib.KernelVsHost
import Idealize.ShloMosaic.Lib.ValueLayout

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀

/-- A 100000×128 by 128×128 host product at `(p, q)`: the sum over the contracted coordinate. -/
theorem dot_apply (A : FVec Ideal S100000x128 .f32) (B : FVec Ideal S128x128 .f32) (p : Fin 100000) (q : Fin 128) :
    Host.dotGeneral dot_S100000x128_S128x128_S100000x128_1_0_0_1_n_n none A B (ix2 p q)
      = ∑ k : Fin 128, A (ix2 p k) * B (ix2 k q) :=
  StackMember.dotGeneral_plain_apply (m := 100000) (n := 128) (k := 128) none A B p q

/-- The reference's in-degree is `Deg`. -/
theorem deg_eq (dst : (⟨S1600000, .i32⟩ : BufTy).Contents (Elt Ideal)) :
    Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32))
    = Cert.Sage.Deg (F := Ideal) dst := rfl

/-- The reference's neighbour sums are `Agg`. -/
theorem agg_eq (x : (⟨S100000x128, .f32⟩ : BufTy).Contents (Elt Ideal)) (src dst : (⟨S1600000, .i32⟩ : BufTy).Contents (Elt Ideal)) :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
    = Cert.Sage.Agg (F := Ideal) x src dst := rfl

/-- The maximum with a zero array is `relu`. -/
theorem relu_eq (v : (⟨S100000x128, .f32⟩ : BufTy).Contents (Elt Ideal)) :
    maximumf v (broadcastInDim S100000x128 ![] bcast_S_S100000x128 (constant (F := Ideal) S_ .f32 0x00000000#32)) = Cert.Sage.relu v := rfl

/-- One layer of the reference is the layer of the specification. -/
theorem ref_layer (h agg : FVec Ideal S100000x128 .f32) (deg : FVec Ideal S100000 .f32)
    (Ws Wn : FVec Ideal S128x128 .f32) (b : FVec Ideal S128 .f32) :
    addf (addf (Host.dotGeneral dot_S100000x128_S128x128_S100000x128_1_0_0_1_n_n none h Ws)
        (Host.dotGeneral dot_S100000x128_S128x128_S100000x128_1_0_0_1_n_n none
          (Host.divf agg (broadcastInDim S100000x128 ![0, 1] bcast_S100000x1_S100000x128_0_1
            (broadcastInDim S100000x1 ![0] bcast_S100000_S100000x1_0
              (maximumf deg (broadcastInDim S100000 ![] bcast_S_S100000 (constant (F := Ideal) S_ .f32 0x3F800000#32)))))) Wn))
      (broadcastInDim S100000x128 ![0, 1] bcast_S1x128_S100000x128_0_1 (broadcastInDim S1x128 ![1] bcast_S128_S1x128_1 b))
    = Cert.Sage.layer (N := 100000) h agg (Cert.Sage.col (F := Ideal) deg) Ws Wn (Cert.Sage.biasRow (F := Ideal) b) := by
  funext i
  obtain ⟨p, q, rfl⟩ : ∃ (p : Fin 100000) (q : Fin 128), i = ix2 p q := ⟨i 0, i 1, eq_ix2 i⟩
  rw [Cert.Sage.layer_ix2]
  unfold Cert.Sage.layerAt
  show (Host.dotGeneral _ none _ _ (ix2 p q) + Host.dotGeneral _ none _ _ (ix2 p q)) + broadcastInDim S100000x128 _ _ _ (ix2 p q) = _
  rw [dot_apply, dot_apply, broadcastInDim_oneRow_apply, Cert.LibHostColumn.broadcastInDim_b_1b_apply]
  refine congrArg₂ (· + ·) (congrArg₂ (· + ·) rfl ?_) ?_
  · refine Finset.sum_congr rfl fun k _ => ?_
    show Ideal.div (agg (ix2 p k)) (broadcastInDim S100000x128 _ _ _ (ix2 p k)) * Wn (ix2 k q) = _
    rw [Cert.LibHostColumn.broadcastInDim_a1_ab_apply, Cert.LibHostColumn.broadcastInDim_a_a1_apply]
    unfold Cert.Sage.col
    rw [Cert.LibColumn.shapeCast_a_a1_apply]
    rfl
  · unfold Cert.Sage.biasRow
    exact (shapeCast_a_1a_apply b _ (0 : Fin 1) q).symm

/-- THE REFERENCE'S RESULT: the two-layer network of its arguments. -/
theorem res_eq (m : (ℓ : Loc nD τ sig) → Buf (Elt Ideal) ℓ) (c : Dev nD) :
    Cert.ReferenceIdeal.Value.res_main_v50 (F := Ideal) m c
      = Cert.Sage.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v50
  generalize m ((c.tc : Thread nD τ).loc main_arg0) = x
  generalize m ((c.tc : Thread nD τ).loc main_arg1) = ws1
  generalize m ((c.tc : Thread nD τ).loc main_arg2) = wn1
  generalize m ((c.tc : Thread nD τ).loc main_arg3) = b1
  generalize m ((c.tc : Thread nD τ).loc main_arg4) = ws2
  generalize m ((c.tc : Thread nD τ).loc main_arg5) = wn2
  generalize m ((c.tc : Thread nD τ).loc main_arg6) = b2
  generalize m ((c.tc : Thread nD τ).loc main_arg7) = src
  generalize m ((c.tc : Thread nD τ).loc main_arg8) = dst
  revert x ws1 wn1 b1 ws2 wn2 b2 src dst
  show ∀ (x : FVec Ideal S100000x128 .f32) (ws1 wn1 : FVec Ideal S128x128 .f32) (b1 : FVec Ideal S128 .f32)
    (ws2 wn2 : FVec Ideal S128x128 .f32) (b2 : FVec Ideal S128 .f32) (src dst : IVec S1600000 32), _
  intro x ws1 wn1 b1 ws2 wn2 b2 src dst
  rw [deg_eq, agg_eq, ref_layer, relu_eq, agg_eq, ref_layer]
  rfl

end Cert.ReferenceIdeal.RefValue

end
-- ==== Proof.lean ====
/-
  The certificate: a two-layer GraphSAGE network with mean aggregation, its dense part in two kernel launches,
  against the plain array program.

  Both programs compute, on the host and with the same operations, the in-degree of every node and, per layer, the
  sum of the features of every node's in-neighbours. A layer then is
      out[p,q] = (∑ₖ h[p,k] · W_self[k,q]) + (∑ₖ (agg[p,k] / max(deg[p], 1)) · W_neigh[k,q]) + b[q],
  with the maximum with zero after the first layer. The kernel computes it block of 5000 rows by block, the products
  accumulated into zero matrices after a rounding to bf16 that is the identity on extended reals; the reference
  computes it on whole arrays. Read entry by entry the two are the same sums, so no law of arithmetic beyond
  `0 + x = x` is used and the inputs' finiteness is never opened.

  The three frames are the generated ones (the reference's is its run with the result dropped); the kernel's
  idealization rewrote nothing; the value claim puts the kernel's run, with its result read through the two launches
  and the host operations between them, beside the reference's run.
-/
import proofs.«109857_j72232759984607_1_alg».proof.Defs
import proofs.«109857_j72232759984607_1_alg».proof.Proof.Gen.Kernel
import proofs.«109857_j72232759984607_1_alg».proof.Proof.Gen.Kernel.Skeleton
import proofs.«109857_j72232759984607_1_alg».proof.Proof.Gen.Kernel.Launch
import proofs.«109857_j72232759984607_1_alg».proof.Proof.Gen.Kernel.Points
import proofs.«109857_j72232759984607_1_alg».proof.Proof.Gen.Kernel.Frame
import proofs.«109857_j72232759984607_1_alg».proof.Proof.Gen.KernelIdeal
import proofs.«109857_j72232759984607_1_alg».proof.Proof.Gen.KernelIdeal.Skeleton
import proofs.«109857_j72232759984607_1_alg».proof.Proof.Gen.KernelIdeal.Launch
import proofs.«109857_j72232759984607_1_alg».proof.Proof.Gen.KernelIdeal.Points
import proofs.«109857_j72232759984607_1_alg».proof.Proof.Gen.KernelIdeal.Frame
import proofs.«109857_j72232759984607_1_alg».proof.Proof.Gen.ReferenceIdeal
import proofs.«109857_j72232759984607_1_alg».proof.Proof.Gen.Pre_finite_inputs
import proofs.«109857_j72232759984607_1_alg».proof.Proof.Gen.ReferenceIdeal.Run
import proofs.«109857_j72232759984607_1_alg».proof.Proof.Gen.ReferenceIdeal.Read
import proofs.«109857_j72232759984607_1_alg».proof.Proof.KernelRun
import proofs.«109857_j72232759984607_1_alg».proof.Proof.HostK
import proofs.«109857_j72232759984607_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two-layer network of those arguments in
    their result buffers. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostK.result m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.res_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
